-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Finite.lean ====
/-
  Finiteness read out of the precondition.

  The precondition is the conjunction of three statements `all (|a| < +∞)`, one per argument array. On the
  extended reals `|x| = max x (-x)`, and `max x (-x) < ⊤` excludes both infinities: `⊤` itself, and `⊥`, whose
  negation is `⊤`. So under the precondition every entry of every argument array is (the image of) a real
  number — which is what the associativity of the matrix product needs.
-/
import proofs.«120823_g52158082843307_cont_9to1_m_725_8_alg».proof.Pre_finite_inputs
import Idealize.ShloMosaic.Lib.ReduceAll
import Idealize.ShloMosaic.Lib.ValueIdx
import Idealize.ShloMosaic.PureOps.Ideal.Laws

open Idealize.ShloMosaic

namespace Cert.Finite

open Cert.Pre_finite_inputs

/-- The word `0x7F800000` is `+∞`. -/
theorem inf_word : Ideal.ofBits .f32 0x7F800000#32 = (⊤ : EReal) := by simp [Ideal.ofBits, Ideal.ieee]

/-- An extended real whose absolute value is strictly below `+∞` is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = r := by
  induction x using EReal.rec with
  | bot => exfalso; revert h; simp [Ideal.cmpf_def, Ideal.absf_def, Ideal.cmp, inf_word]
  | top => exfalso; revert h; simp [Ideal.cmpf_def, Ideal.absf_def, Ideal.cmp, inf_word]
  | coe r => exact ⟨r, rfl⟩

/-- The rank-0 result of an `all` has one index. -/
instance : Subsingleton S_.Idx := ⟨fun _ _ => funext fun d => d.elim0⟩

variable [Cert.Pre_finite_inputs.Facts]

/-- Under the precondition every entry of each of the three argument arrays is a real number. -/
theorem entries_real (a0 : FVec Ideal S10000x128 .f32) (a1 : FVec Ideal S10000x10000 .f32) (a2 : FVec Ideal S128x128 .f32)
    (h : Cert.Pre_finite_inputs.fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [Cert.Pre_finite_inputs.fn] at h0
  -- the conjunction of the three `all`s, at the one index of the rank-0 result
  obtain ⟨h01, e2⟩ := IntOp.andi_eq_one.1 (show IntOp.andi _ _ = 1#1 from h0)
  obtain ⟨e0, e1⟩ := IntOp.andi_eq_one.1 (show IntOp.andi _ _ = 1#1 from h01)
  exact ⟨fun i => real_of_abs_lt_inf _ (Host.reduce_andi_all _ _ _ _ ValueIdx.ix0 e0 i),
    fun i => real_of_abs_lt_inf _ (Host.reduce_andi_all _ _ _ _ ValueIdx.ix0 e1 i),
    fun i => real_of_abs_lt_inf _ (Host.reduce_andi_all _ _ _ _ ValueIdx.ix0 e2 i)⟩

end Cert.Finite
-- ==== Proof.MatAssoc.lean ====
/-
  Associativity of the matrix product on the extended reals, for entries that are real numbers.

  For a row `a` (indexed by `J`), a matrix `x` (`J × K`) and a column `w` (indexed by `K`),

      ∑ k, (∑ j, a j * x j k) * w k  =  ∑ j, a j * (∑ k, x j k * w k).

  Over the reals this is distributivity on both sides, an exchange of the two finite sums, and associativity of
  the product. On the extended reals distributivity fails at the infinities (`⊤ + ⊥` absorbs), so the law is
  stated for entries each of which is the image of a real: then every partial sum and product is again the image
  of a real, and the identity is the real one carried through the coercion.
-/
import Idealize.ShloMosaic.PureOps.Ideal

open scoped BigOperators

namespace Cert.MatAssoc

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: `(a · x) · w = a · (x · w)` for a row, a matrix and a column. -/
theorem real_assoc {J K : Type*} [Fintype J] [Fintype K] (a : J → ℝ) (x : J → K → ℝ) (w : K → ℝ) :
    ∑ k, (∑ j, a j * x j k) * w k = ∑ j, a j * ∑ k, x j k * w k := by
  simp only [Finset.sum_mul, Finset.mul_sum]
  rw [Finset.sum_comm]
  exact Finset.sum_congr rfl fun j _ => Finset.sum_congr rfl fun k _ => mul_assoc _ _ _

/-- The same on the extended reals, when every entry of the row, the matrix and the column is a real number. -/
theorem ereal_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  obtain rfl : a = fun j => (a' j : EReal) := funext ha
  obtain rfl : x = fun j k => (x' j k : EReal) := funext fun j => funext (hx j)
  obtain rfl : w = fun k => (w' k : EReal) := funext hw
  simp only [← EReal.coe_mul, ← coe_sum]
  exact congrArg _ (real_assoc a' x' w')

end Cert.MatAssoc
-- ==== Proof.GcnSpec.lean ====
/-
  The graph-convolution layer as a function of its three arrays, in the two orders the two programs compute it.

  With `A` the dense adjacency (10000 × 10000), `X` the node features (10000 × 128) and `W` the weights
  (128 × 128), the layer's output at node `r`, feature `l` is the (r, l) entry of `A · X · W`:

    * `aggregateThenProject`: `(A · X) · W` — first mix the neighbours' features, then apply the weights;
    * `projectThenAggregate`: `A · (X · W)` — first apply the weights to every node, then mix.

  The two are the same array when every entry is a real number: associativity of the matrix product, entry by
  entry (`MatAssoc.ereal_assoc` with the row `A (r, ·)`, the matrix `X` and the column `W (·, l)`).
-/
import proofs.«120823_g52158082843307_cont_9to1_m_725_8_alg».proof.Proof.MatAssoc
import Idealize.ShloMosaic.Lib.ValueIdx

noncomputable section

open scoped BigOperators
open Idealize.ShloMosaic Idealize.ShloMosaic.ValueIdx

namespace Cert.Gcn

/-- The adjacency's, the features' (and the output's) and the weights' index sets. -/
abbrev SA : Shape := ⟨2, ![10000, 10000]⟩
abbrev SX : Shape := ⟨2, ![10000, 128]⟩
abbrev SW : Shape := ⟨2, ![128, 128]⟩

/-- `(A · X) · W` at node `i 0`, feature `i 1`. -/
def aggregateThenProject (A : SA.Idx → EReal) (X : SX.Idx → EReal) (W : SW.Idx → EReal) : SX.Idx → EReal :=
  fun i => ∑ k : Fin 128, (∑ j : Fin 10000, A (ix2 (i 0) j) * X (ix2 j k)) * W (ix2 k (i 1))

/-- `A · (X · W)` at node `i 0`, feature `i 1`. -/
def projectThenAggregate (A : SA.Idx → EReal) (X : SX.Idx → EReal) (W : SW.Idx → EReal) : SX.Idx → EReal :=
  fun i => ∑ j : Fin 10000, A (ix2 (i 0) j) * ∑ k : Fin 128, X (ix2 j k) * W (ix2 k (i 1))

/-- For arrays of real numbers the two orders give one array. -/
theorem aggregateThenProject_eq (A : SA.Idx → EReal) (X : SX.Idx → EReal) (W : SW.Idx → EReal)
    (hA : ∀ i, ∃ r : ℝ, A i = r) (hX : ∀ i, ∃ r : ℝ, X i = r) (hW : ∀ i, ∃ r : ℝ, W i = r) :
    aggregateThenProject A X W = projectThenAggregate A X W :=
  funext fun i => MatAssoc.ereal_assoc (fun j : Fin 10000 => A (ix2 (i 0) j)) (fun (j : Fin 10000) (k : Fin 128) => X (ix2 j k))
    (fun k : Fin 128 => W (ix2 k (i 1))) (fun _ => hA _) (fun _ _ => hX _) (fun _ => hW _)

end Cert.Gcn

end
-- ==== Proof.RefGcn.lean ====
/-
  The reference computes `A · (X · W)`.

  Its two `dot_general`s, read at an index: the outer one is the sum over `j` of the adjacency at (r, j) times the
  inner product's entry (j, l); the inner one is the sum over `k` of the features at (j, k) times the weights at
  (k, l). Composed, the result at (r, l) is `∑ j, A (r, j) · ∑ k, X (j, k) · W (k, l)`.
-/
import proofs.«120823_g52158082843307_cont_9to1_m_725_8_alg».proof.Proof.Gen.ReferenceIdeal.Read
import proofs.«120823_g52158082843307_cont_9to1_m_725_8_alg».proof.Proof.GcnSpec

noncomputable section

open scoped BigOperators
open Idealize.ShloMosaic Idealize.ShloMosaic.ValueIdx

namespace Cert.ReferenceIdeal.Gcn

open Cert.ReferenceIdeal Cert.ReferenceIdeal.Read

/-- The outer product's left operand index at output (r, l), contraction position `j`, is (r, j). -/
theorem outer_left (i : S10000x128.Idx) (j : Fin 10000) : lidx_main_v1 i j = ix2 (i 0) j :=
  funext fun a => by match a with | ⟨0, _⟩ => rfl | ⟨1, _⟩ => rfl

/-- The inner product's left operand index at output (j, l), contraction position `k`, is (j, k). -/
theorem inner_left (i : S10000x128.Idx) (k : Fin 128) : lidx_main_v0 i k = ix2 (i 0) k :=
  funext fun a => by match a with | ⟨0, _⟩ => rfl | ⟨1, _⟩ => rfl

/-- Its right operand index is (k, l). -/
theorem inner_right (i : S10000x128.Idx) (k : Fin 128) : ridx_main_v0 i k = ix2 k (i 1) :=
  funext fun a => by match a with | ⟨0, _⟩ => rfl | ⟨1, _⟩ => rfl

/-- The reference's result, as a function of the features `x0`, the adjacency `x1` and the weights `x2`, is
    `A · (X · W)`. -/
theorem reference_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = Cert.Gcn.projectThenAggregate x1 x0 x2 := by
  funext i
  rw [val_main_v1_apply]
  show _ = ∑ j : Fin 10000, x1 (ix2 (i 0) j) * ∑ k : Fin 128, x0 (ix2 j k) * x2 (ix2 k (i 1))
  refine Finset.sum_congr rfl fun j _ => ?_
  rw [val_main_v0_apply, outer_left]
  refine congrArg _ (Finset.sum_congr rfl fun k _ => ?_)
  -- the inner product is read at the outer one's right operand index, which is (j, l)
  rw [inner_left, inner_right]
  rfl

end Cert.ReferenceIdeal.Gcn

end
-- ==== Proof.KernelGcn.lean ====
/-
  The kernel computes `(A · X) · W`, 400 nodes per grid point.

  At grid point `t` the body holds rows `400 t … 400 t + 399` of the adjacency (all 10000 columns), the whole
  feature array and the whole weight array. It multiplies the adjacency rows into the features (a sum over the
  10000 nodes), multiplies the result into the weights (a sum over the 128 features), and stores the 400 × 128
  product as block `t` of the output. So the entry it writes for node `400 t + p`, feature `q` is
  `∑ k, (∑ j, A (400 t + p, j) · X (j, k)) · W (k, q)`: block `t` of the whole array `(A · X) · W`. The 25 blocks
  tile the 10000 rows, so after the run the output array is that whole array.
-/
import proofs.«120823_g52158082843307_cont_9to1_m_725_8_alg».proof.Proof.Gen.KernelIdeal.Value
import proofs.«120823_g52158082843307_cont_9to1_m_725_8_alg».proof.Proof.GcnSpec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Gcn

open Cert.KernelIdeal Cert.KernelIdeal.Gen Cert.KernelIdeal.Value

/-! ## The body's two products, read at an index

Each is a product into the zero accumulator with one contracted axis: at output (p, q) it is the sum, over the
contracted coordinate `k`, of the left operand at (p, k) times the right operand at (k, q). -/

/-- The first product's left operand (the adjacency rows) is read at the output's row and the contracted node. -/
theorem mix_left_row (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mix_left_col (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- Its right operand (the features) is read at the contracted node and the output's column. -/
theorem mix_right_row (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem mix_right_col (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The adjacency rows times the features: at (p, q), the sum over the 10000 nodes `k` of `l (p, k) · r (k, q)`. -/
theorem mix_apply (l : FVec Ideal S400x10000 .f32) (r : FVec Ideal S10000x128 .f32) (i : S400x128.Idx) :
    matmul dot_S400x10000_S10000x128_S400x128_1_0_0_1_n_n none l r (constant (F := Ideal) S400x128 .f32 0x00000000#32) i
      = ∑ k : Fin 10000, l (ix2 (i 0) k) * r (ix2 k (i 1)) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx i ((contrEquiv1 dot_S400x10000_S10000x128_S400x128_1_0_0_1_n_n 10000 rfl rfl).symm k) = ix2 (i 0) k := funext fun a => Fin.ext (by
    match a with
    | ⟨0, _⟩ => exact mix_left_row _ _
    | ⟨1, _⟩ => exact (mix_left_col _ _).trans hk)
  have er : dot_S400x10000_S10000x128_S400x128_1_0_0_1_n_n.rhsIdx i ((contrEquiv1 dot_S400x10000_S10000x128_S400x128_1_0_0_1_n_n 10000 rfl rfl).symm k) = ix2 k (i 1) := funext fun a => Fin.ext (by
    match a with
    | ⟨0, _⟩ => exact (mix_right_row _ _).trans hk
    | ⟨1, _⟩ => exact mix_right_col _ _)
  rw [el, er]
  rfl

/-- The second product's left operand (the mixed features) is read at the output's row and the contracted feature. -/
theorem project_left_row (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem project_left_col (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- Its right operand (the weights) is read at the contracted feature and the output's column. -/
theorem project_right_row (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem project_right_col (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The mixed features times the weights: at (p, q), the sum over the 128 features `k` of `l (p, k) · r (k, q)`. -/
theorem project_apply (l : FVec Ideal S400x128 .f32) (r : FVec Ideal S128x128 .f32) (i : S400x128.Idx) :
    matmul dot_S400x128_S128x128_S400x128_1_0_0_1_n_n none l r (constant (F := Ideal) S400x128 .f32 0x00000000#32) i
      = ∑ k : Fin 128, l (ix2 (i 0) k) * r (ix2 k (i 1)) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx i ((contrEquiv1 dot_S400x128_S128x128_S400x128_1_0_0_1_n_n 128 rfl rfl).symm k) = ix2 (i 0) k := funext fun a => Fin.ext (by
    match a with
    | ⟨0, _⟩ => exact project_left_row _ _
    | ⟨1, _⟩ => exact (project_left_col _ _).trans hk)
  have er : dot_S400x128_S128x128_S400x128_1_0_0_1_n_n.rhsIdx i ((contrEquiv1 dot_S400x128_S128x128_S400x128_1_0_0_1_n_n 128 rfl rfl).symm k) = ix2 k (i 1) := funext fun a => Fin.ext (by
    match a with
    | ⟨0, _⟩ => exact (project_right_row _ _).trans hk
    | ⟨1, _⟩ => exact project_right_col _ _)
  rw [el, er]
  rfl

/-! ## The body's one stored value -/

/-- What the body stores, at row `p` and feature `q` of its block: `∑ k, (∑ j, a (p, j) · x (j, k)) · w (k, q)` of
    the adjacency rows `a`, the features `x` and the weights `w` it loaded. -/
theorem stored_apply (a : Vec Ideal S400x10000 .f32) (x : Vec Ideal S10000x128 .f32) (w : Vec Ideal S128x128 .f32) (i : S400x128.Idx) :
    k0_pay1 a x w i = ∑ k : Fin 128, (∑ j : Fin 10000, a (ix2 (i 0) j) * x (ix2 j k)) * w (ix2 k (i 1)) := by
  unfold k0_pay1
  refine (project_apply (matmul dot_S400x10000_S10000x128_S400x128_1_0_0_1_n_n none a x (constant (F := Ideal) S400x128 .f32 0x00000000#32)) w i).trans ?_
  refine Finset.sum_congr rfl fun k _ => ?_
  exact congrArg (fun s => s * w (ix2 k (i 1))) (mix_apply a x (ix2 (i 0) k))

/-! ## What a grid point writes back -/

variable (m : (ℓ : Loc nD τ sig) → Buf (Elt Ideal) ℓ) (ρ : Dev nD → PrngReg)

theorem zero_offsets : (![0, 0] : Fin 2 → Nat) = fun _ => 0 := funext fun a => by fin_cases a <;> rfl

/-- The windows' block indices over the grid: the adjacency's row block moves with the output's, which is the
    point's number; every other block index is 0 (the features and the weights are whole, and no window is split
    along its columns). -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- The three arrays as the region finds them, and the three input blocks at a point, each as an array of
    extended reals over its literal index set. -/
abbrev adj (c : Dev nD) : S10000x10000.Idx → EReal := V m c main_arg1
abbrev feat (c : Dev nD) : S10000x128.Idx → EReal := V m c main_arg0
abbrev wts (c : Dev nD) : S128x128.Idx → EReal := V m c main_arg2
abbrev adjBlock (c : Dev nD) (t : Fin cfg0.N) : S400x10000.Idx → EReal := iblk m c 0 t
abbrev featBlock (c : Dev nD) (t : Fin cfg0.N) : S10000x128.Idx → EReal := iblk m c 1 t
abbrev wtsBlock (c : Dev nD) (t : Fin cfg0.N) : S128x128.Idx → EReal := iblk m c 2 t

/-- The whole array the kernel computes, of the arrays as the region finds them. -/
abbrev layer (c : Dev nD) : S10000x128.Idx → EReal :=
  Cert.Gcn.aggregateThenProject (adj m c) (feat m c) (wts m c)

/-- Point `t`'s adjacency block is rows `400 t … 400 t + 399` of the adjacency, all columns. -/
theorem adjBlock_apply (c : Dev nD) (t : Fin cfg0.N) (x : S400x10000.Idx) (i : S10000x10000.Idx)
    (h0 : (i 0).val = t.val * 400 + (x 0).val) (h1 : (i 1).val = (x 1).val) : adjBlock m c t x = adj m c i := by
  obtain ⟨e00, e01, -, -, -, -, -, e30⟩ := block_indices t
  show V m c main_arg1 (((cfg0.win 0).blk t).view.emb x) = V m c main_arg1 i
  congr 1
  funext a; apply Fin.ext
  match a with
  | ⟨0, _⟩ => show win0_0.index t (0 : Fin 2) * 400 + 1 * (x 0).val = (i 0).val; omega
  | ⟨1, _⟩ => show win0_0.index t (1 : Fin 2) * 10000 + 1 * (x 1).val = (i 1).val; omega

/-- The features' one block is the feature array. -/
theorem featBlock_apply (c : Dev nD) (t : Fin cfg0.N) (x i : S10000x128.Idx)
    (h0 : (i 0).val = (x 0).val) (h1 : (i 1).val = (x 1).val) : featBlock m c t x = feat m c i := by
  obtain ⟨-, -, e10, e11, -⟩ := block_indices t
  show V m c main_arg0 (((cfg0.win 1).blk t).view.emb x) = V m c main_arg0 i
  congr 1
  funext a; apply Fin.ext
  match a with
  | ⟨0, _⟩ => show win0_1.index t (0 : Fin 2) * 10000 + 1 * (x 0).val = (i 0).val; omega
  | ⟨1, _⟩ => show win0_1.index t (1 : Fin 2) * 128 + 1 * (x 1).val = (i 1).val; omega

/-- The weights' one block is the weight array. -/
theorem wtsBlock_apply (c : Dev nD) (t : Fin cfg0.N) (x i : S128x128.Idx)
    (h0 : (i 0).val = (x 0).val) (h1 : (i 1).val = (x 1).val) : wtsBlock m c t x = wts m c i := by
  obtain ⟨-, -, -, -, e20, e21, -⟩ := block_indices t
  show V m c main_arg2 (((cfg0.win 2).blk t).view.emb x) = V m c main_arg2 i
  congr 1
  funext a; apply Fin.ext
  match a with
  | ⟨0, _⟩ => show win0_2.index t (0 : Fin 2) * 128 + 1 * (x 0).val = (i 0).val; omega
  | ⟨1, _⟩ => show win0_2.index t (1 : Fin 2) * 128 + 1 * (x 1).val = (i 1).val; omega

/-- WHAT POINT `t` WRITES BACK is block `t` of `(A · X) · W`: the entry for row `p`, feature `q` of the block is
    the whole array's entry at node `400 t + p`, feature `q`. -/
theorem flushed_eq (c : Dev nD) (t : Fin cfg0.N) :
    (dats m 0 c).flushed 3 t = ((cfg0.win 3).blk t).view.read (Elt Ideal) (layer m c) := by
  rw [flushed3]
  unfold out0_3
  rw [View.canon_unit_zero zero_offsets]
  simp only [View.ld_unit_zero (S := S400x10000) zero_offsets, View.ld_unit_zero (S := S10000x128) zero_offsets,
    View.ld_unit_zero (S := S128x128) zero_offsets]
  obtain ⟨-, -, -, -, -, -, e31, e30⟩ := block_indices t
  funext y
  -- the output block's entry (p, q) lands at row (block index) · 400 + p, column q of the array
  have hr : ((((cfg0.win 3).blk t).view.emb y) 0).val = win0_3.index t (0 : Fin 2) * 400 + 1 * (y 0).val := rfl
  have hc : ((((cfg0.win 3).blk t).view.emb y) 1).val = win0_3.index t (1 : Fin 2) * 128 + 1 * (y 1).val := rfl
  show k0_pay1 (F := Ideal) (adjBlock m c t) (featBlock m c t) (wtsBlock m c t) y = layer m c (((cfg0.win 3).blk t).view.emb y)
  refine (stored_apply (adjBlock m c t) (featBlock m c t) (wtsBlock m c t) y).trans ?_
  show _ = ∑ k : Fin 128, (∑ j : Fin 10000, adj m c (ix2 ((((cfg0.win 3).blk t).view.emb y) 0) j) * feat m c (ix2 j k))
      * wts m c (ix2 k ((((cfg0.win 3).blk t).view.emb y) 1))
  refine Finset.sum_congr rfl fun k _ => ?_
  refine congrArg₂ (· * ·) (Finset.sum_congr rfl fun j _ => congrArg₂ (· * ·) ?_ ?_) ?_
  · refine adjBlock_apply m c t (ix2 (y 0) j) (ix2 ((((cfg0.win 3).blk t).view.emb y) 0) j) ?_ rfl
    show ((((cfg0.win 3).blk t).view.emb y) 0).val = t.val * 400 + (y 0).val
    omega
  · exact featBlock_apply m c t (ix2 j k) (ix2 j k) rfl rfl
  · refine wtsBlock_apply m c t (ix2 k (y 1)) (ix2 k ((((cfg0.win 3).blk t).view.emb y) 1)) rfl ?_
    show ((((cfg0.win 3).blk t).view.emb y) 1).val = (y 1).val
    omega

/-! ## From the blocks to the array -/

/-- An index of the output array is in point `t`'s block iff each coordinate is in the block's range on its axis. -/
theorem mem_block (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Every node's row is in some point's block: node `r` in block `r / 400`. -/
theorem covered (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, -, -, e31, e30⟩ := block_indices t
  refine ⟨t, flush0_3 t, ?_⟩
  rw [mem_block]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- THE OUTPUT ARRAY after the run is `(A · X) · W` of the arrays as launched. -/
theorem final (c : Dev nD) : (dats m 0 c).arrAt 3 cfg0.N = layer m c :=
  (dats m 0 c).arrAt_eq_of_cover 3 (layer m c) (fun t _ => flushed_eq m c t) covered

/-- The run, read: the result array at `(A · X) · W` of the arguments, the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Gcn

end
-- ==== Proof.lean ====
/- A graph-convolution layer, `out = A · X · W` with `A` a dense 10000 × 10000 adjacency, `X` the 10000 × 128 node
   features and `W` the 128 × 128 weights, computed in two orders.

   The kernel walks the nodes in 25 blocks of 400: for each block it multiplies the block's adjacency rows into the
   whole feature array and the result into the weights, and writes the 400 × 128 product as that block of the output
   — so the output array is `(A · X) · W` (Proof/KernelGcn.lean). The reference applies the weights first and the
   adjacency second, `A · (X · W)` (Proof/RefGcn.lean). At the ideal values every product is an exact finite sum with
   no rounding and no accumulation order, so the two are equal exactly when the matrix product is associative; on the
   extended reals that needs distributivity, which holds once every entry is a real number (Proof/MatAssoc.lean,
   Proof/GcnSpec.lean) — and that is what the precondition says of the three argument arrays (Proof/Finite.lean).

   The three frames: the two kernel programs run by their generated frame certificates, and the reference, a host
   program, by its generated run with the result dropped. The ideal pass rewrote nothing, so there is nothing to
   preserve. -/
import proofs.«120823_g52158082843307_cont_9to1_m_725_8_alg».proof.Defs
import proofs.«120823_g52158082843307_cont_9to1_m_725_8_alg».proof.Proof.Gen.Kernel
import proofs.«120823_g52158082843307_cont_9to1_m_725_8_alg».proof.Proof.Gen.Kernel.Skeleton
import proofs.«120823_g52158082843307_cont_9to1_m_725_8_alg».proof.Proof.Gen.Kernel.Launch
import proofs.«120823_g52158082843307_cont_9to1_m_725_8_alg».proof.Proof.Gen.Kernel.Points
import proofs.«120823_g52158082843307_cont_9to1_m_725_8_alg».proof.Proof.Gen.Kernel.Frame
import proofs.«120823_g52158082843307_cont_9to1_m_725_8_alg».proof.Proof.Gen.KernelIdeal
import proofs.«120823_g52158082843307_cont_9to1_m_725_8_alg».proof.Proof.Gen.KernelIdeal.Skeleton
import proofs.«120823_g52158082843307_cont_9to1_m_725_8_alg».proof.Proof.Gen.KernelIdeal.Launch
import proofs.«120823_g52158082843307_cont_9to1_m_725_8_alg».proof.Proof.Gen.KernelIdeal.Points
import proofs.«120823_g52158082843307_cont_9to1_m_725_8_alg».proof.Proof.Gen.KernelIdeal.Frame
import proofs.«120823_g52158082843307_cont_9to1_m_725_8_alg».proof.Proof.Gen.ReferenceIdeal
import proofs.«120823_g52158082843307_cont_9to1_m_725_8_alg».proof.Proof.Gen.Pre_finite_inputs
import proofs.«120823_g52158082843307_cont_9to1_m_725_8_alg».proof.Proof.Gen.KernelIdeal.Value
import proofs.«120823_g52158082843307_cont_9to1_m_725_8_alg».proof.Proof.Gen.ReferenceIdeal.Run
import proofs.«120823_g52158082843307_cont_9to1_m_725_8_alg».proof.Proof.Gen.ReferenceIdeal.Read
import Idealize.ShloMosaic.Adequacy
import Idealize.ShloMosaic.Init
import proofs.«120823_g52158082843307_cont_9to1_m_725_8_alg».proof.Proof.Finite
import proofs.«120823_g52158082843307_cont_9to1_m_725_8_alg».proof.Proof.RefGcn
import proofs.«120823_g52158082843307_cont_9to1_m_725_8_alg».proof.Proof.KernelGcn

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arrays, the kernel's output array ends at `(A · X) · W` and the reference's
    at `A · (X · W)` of the same arrays; their entries are real numbers by the precondition, so the two arrays are
    one by associativity of the matrix product. -/
theorem algebraic : Cert.algebraic_KernelIdeal_ReferenceIdeal := by
  intro m ρ m' ρ' hpre hagree
  refine ⟨fun c => Cert.KernelIdeal.Gcn.layer m c, Cert.KernelIdeal.Gcn.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gcn.layer m c
  rw [Cert.ReferenceIdeal.Read.val_main_v1_eq, Cert.ReferenceIdeal.Gcn.reference_eq, (hagree c).1, (hagree c).2.1, (hagree c).2.2]
  obtain ⟨hX, hA, hW⟩ := Cert.Finite.entries_real _ _ _ (hpre c)
  exact (Cert.Gcn.aggregateThenProject_eq _ _ _ hA hX hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
